-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S200000x128 .f32) (main_arg1 : IVec S2x2000000 32) (main_arg2 : FVec F S128x128 .f32) (main_arg3 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S1x2000000 : Shape := ⟨2, ![1, 2000000]⟩
abbrev S2000000 : Shape := ⟨1, ![2000000]⟩
abbrev S2000x128 : Shape := ⟨2, ![2000, 128]⟩
abbrev S_ : Shape := ⟨0, ![]⟩
abbrev S200000 : Shape := ⟨1, ![200000]⟩
abbrev S2000000x1 : Shape := ⟨2, ![2000000, 1]⟩
abbrev S200000x1 : Shape := ⟨2, ![200000, 1]⟩
abbrev S50000 : Shape := ⟨1, ![50000]⟩
abbrev S50000x1 : Shape := ⟨2, ![50000, 1]⟩
abbrev S2000000x128 : Shape := ⟨2, ![2000000, 128]⟩
abbrev S50000x128 : Shape := ⟨2, ![50000, 128]⟩
abbrev S2000x1 : Shape := ⟨2, ![2000, 1]⟩
abbrev S1x128 : Shape := ⟨2, ![1, 128]⟩

abbrev nBuf : Space → Nat
  | .hbm => 69
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S200000x128, .f32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S200000, .f32⟩
  | .hbm, ⟨13, _⟩ => ⟨S2000000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000x1, .f32⟩
  | .hbm, ⟨26, _⟩ => ⟨S_, .f32⟩
  | .hbm, ⟨27, _⟩ => ⟨S50000, .f32⟩
  | .hbm, ⟨28, _⟩ => ⟨S2000000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x128, .f32⟩
  | .hbm, ⟨50, _⟩ => ⟨S_, .f32⟩
  | .hbm, ⟨51, _⟩ => ⟨S50000x128, .f32⟩
  | .hbm, ⟨52, _⟩ => ⟨S2000000x1, .i32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x128, .f32⟩
  | .hbm, ⟨64, _⟩ => ⟨S_, .f32⟩
  | .hbm, ⟨65, _⟩ => ⟨S200000x128, .f32⟩
  | .hbm, ⟨66, _⟩ => ⟨S2000000x1, .i32⟩
  | .hbm, ⟨67, _⟩ => ⟨S200000x128, .f32⟩
  | .hbm, ⟨68, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  shapeCasts_S200000_S200000x1 : S200000.ShapeCasts S200000x1
  bcast_S_S50000 : S_.BroadcastsInDim S50000 (![] : Fin 0 → Fin S50000.rank)
  shapeCasts_S50000_S50000x1 : S50000.ShapeCasts S50000x1
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S200000x128 : S_.BroadcastsInDim S200000x128 (![] : Fin 0 → Fin S200000x128.rank)
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  scatter_S200000_S2000000x1_S2000000_n_0_0_1_wf : ScatterDims.WF S200000 S2000000x1 S2000000 [] [0] [0] 1
  scatter_S50000_S2000000x1_S2000000_n_0_0_1_wf : ScatterDims.WF S50000 S2000000x1 S2000000 [] [0] [0] 1
  gather_S200000x128_S2000000x1_S2000000x128_1_0_n_n_0_1_1128_wf : GatherDims.WF S200000x128 S2000000x1 S2000000x128 [1] [0] [] [0] [] 1 ![1, 128]
  scatter_S50000x128_S2000000x1_S2000000x128_1_0_0_1_wf : ScatterDims.WF S50000x128 S2000000x1 S2000000x128 [1] [0] [0] 1
  gather_S50000x128_S2000000x1_S2000000x128_1_0_n_n_0_1_1128_wf : GatherDims.WF S50000x128 S2000000x1 S2000000x128 [1] [0] [] [0] [] 1 ![1, 128]
  scatter_S200000x128_S2000000x1_S2000000x128_1_0_0_1_wf : ScatterDims.WF S200000x128 S2000000x1 S2000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .f32 = 32 ∨ (Rect.block (s := S200000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .f32 = 32 ∨ (Rect.block (s := S200000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S200000x1.size a
  hwx2_1 : ∀ i : grid2.Coords, EltTy.bits .f32 = 32 ∨ (Rect.block (s := S200000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x128 : Shape := ⟨2, ![200000, 128]⟩
abbrev S2x2000000 : Shape := ⟨2, ![2, 2000000]⟩
abbrev S128x128 : Shape := ⟨2, ![128, 128]⟩
abbrev S128 : Shape := ⟨1, ![128]⟩
abbrev S1x2000000 : Shape := ⟨2, ![1, 2000000]⟩
abbrev S2000000 : Shape := ⟨1, ![2000000]⟩
abbrev S_ : Shape := ⟨0, ![]⟩
abbrev S200000 : Shape := ⟨1, ![200000]⟩
abbrev S2000000x1 : Shape := ⟨2, ![2000000, 1]⟩
abbrev S50000 : Shape := ⟨1, ![50000]⟩
abbrev S2000000x128 : Shape := ⟨2, ![2000000, 128]⟩
abbrev S50000x128 : Shape := ⟨2, ![50000, 128]⟩
abbrev S50000x1 : Shape := ⟨2, ![50000, 1]⟩
abbrev S200000x1 : Shape := ⟨2, ![200000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S200000x128, .f32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S200000, .f32⟩
  | .hbm, ⟨13, _⟩ => ⟨S2000000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .f32⟩
  | .hbm, ⟨21, _⟩ => ⟨S_, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S50000, .f32⟩
  | .hbm, ⟨27, _⟩ => ⟨S2000000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S2000000, .i32⟩
  | .hbm, ⟨41, _⟩ => ⟨S2000000, .i1⟩
  | .hbm, ⟨42, _⟩ => ⟨S_, .i32⟩
  | .hbm, ⟨43, _⟩ => ⟨S2000000, .i32⟩
  | .hbm, ⟨44, _⟩ => ⟨S2000000, .i32⟩
  | .hbm, ⟨45, _⟩ => ⟨S2000000, .i32⟩
  | .hbm, ⟨46, _⟩ => ⟨S2000000x1, .i32⟩
  | .hbm, ⟨47, _⟩ => ⟨S2000000x128, .f32⟩
  | .hbm, ⟨48, _⟩ => ⟨S_, .f32⟩
  | .hbm, ⟨49, _⟩ => ⟨S50000x128, .f32⟩
  | .hbm, ⟨50, _⟩ => ⟨S2000000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S2000000, .i32⟩
  | .hbm, ⟨57, _⟩ => ⟨S2000000, .i1⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S2000000, .i32⟩
  | .hbm, ⟨62, _⟩ => ⟨S2000000x1, .i32⟩
  | .hbm, ⟨63, _⟩ => ⟨S2000000x128, .f32⟩
  | .hbm, ⟨64, _⟩ => ⟨S_, .f32⟩
  | .hbm, ⟨65, _⟩ => ⟨S200000x128, .f32⟩
  | .hbm, ⟨66, _⟩ => ⟨S2000000x1, .i32⟩
  | .hbm, ⟨67, _⟩ => ⟨S200000x128, .f32⟩
  | .hbm, ⟨68, _⟩ => ⟨S200000x1, .f32⟩
  | .hbm, ⟨69, _⟩ => ⟨S200000x128, .f32⟩
  | .hbm, ⟨70, _⟩ => ⟨S200000x128, .f32⟩
  | .hbm, ⟨71, _⟩ => ⟨S1x128, .f32⟩
  | .hbm, ⟨72, _⟩ => ⟨S200000x128, .f32⟩
  | .hbm, ⟨73, _⟩ => ⟨S200000x128, .f32⟩
  | .hbm, ⟨74, _⟩ => ⟨S_, .f32⟩
  | .hbm, ⟨75, _⟩ => ⟨S200000x128, .f32⟩
  | .hbm, ⟨76, _⟩ => ⟨S200000x128, .i1⟩
  | .hbm, ⟨77, _⟩ => ⟨S_, .f32⟩
  | .hbm, ⟨78, _⟩ => ⟨S200000x128, .f32⟩
  | .hbm, ⟨79, _⟩ => ⟨S200000x128, .f32⟩
  | .hbm, ⟨80, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S200000 : S_.BroadcastsInDim S200000 (![] : Fin 0 → Fin S200000.rank)
  bcast_S2000000_S2000000x1_0 : S2000000.BroadcastsInDim S2000000x1 (![0] : Fin 1 → Fin S2000000x1.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  dot_S200000x128_S128x128_S200000x128_1_0_0_1_n_n_wf : DotDims.WF S200000x128 S128x128 S200000x128 [1] [0] [0] [1] [] []
  scatter_S200000_S2000000x1_S2000000_n_0_0_1_wf : ScatterDims.WF S200000 S2000000x1 S2000000 [] [0] [0] 1
  scatter_S50000_S2000000x1_S2000000_n_0_0_1_wf : ScatterDims.WF S50000 S2000000x1 S2000000 [] [0] [0] 1
  gather_S200000x128_S2000000x1_S2000000x128_1_0_n_n_0_1_1128_wf : GatherDims.WF S200000x128 S2000000x1 S2000000x128 [1] [0] [] [0] [] 1 ![1, 128]
  scatter_S50000x128_S2000000x1_S2000000x128_1_0_0_1_wf : ScatterDims.WF S50000x128 S2000000x1 S2000000x128 [1] [0] [0] 1
  gather_S50000x128_S2000000x1_S2000000x128_1_0_n_n_0_1_1128_wf : GatherDims.WF S50000x128 S2000000x1 S2000000x128 [1] [0] [] [0] [] 1 ![1, 128]
  scatter_S200000x128_S2000000x1_S2000000x128_1_0_0_1_wf : ScatterDims.WF S200000x128 S2000000x1 S2000000x128 [1] [0] [0] 1

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def scatter_S50000x128_S2000000x1_S2000000x128_1_0_0_1 : ScatterDims S50000x128 S2000000x1 S2000000x128 where
  updateWindowDims := [1]
  insertedWindowDims := [0]
  scatterDimsToOperandDims := [0]
  indexVectorDim := 1
  wf := scatter_S50000x128_S2000000x1_S2000000x128_1_0_0_1_wf
def gather_S50000x128_S2000000x1_S2000000x128_1_0_n_n_0_1_1128 : GatherDims S50000x128 S2000000x1 S2000000x128 where
  offsetDims := [1]
  collapsedSliceDims := [0]
  operandBatchingDims := []
  startIndicesBatchingDims := []
  startIndexMap := [0]
  indexVectorDim := 1
  sliceSizes := ![1, 128]
  wf := gather_S50000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf

class Facts : Prop extends Facts₀ where

variable [Facts]
-- ==== Proof.Stages.lean ====
/-
  The host computations between the three dense sweeps, each as one function of the arrays it reads.

  A hypergraph convolution over an incidence list (node, edge) of 2,000,000 pairs: `node` is row 0 of the index
  array and `edge` row 1. The degree of a node (of a hyperedge) is the number of pairs that name it, computed as a
  scatter-add of ones; its inverse is 1 / degree where the degree is positive and 0 elsewhere. Aggregating node rows
  into hyperedges gathers the row of each pair's node (a negative index wrapped once by the number of rows) and
  scatter-adds it into the pair's hyperedge; aggregating hyperedge rows back into nodes is the same with the two roles
  exchanged. None of these functions is ever opened: both programs apply them to equal operands.
-/
import proofs.«120803_j2559800508842_1_alg».proof.Proof.Gen.ReferenceIdeal

noncomputable section

namespace Cert.Stages

open Idealize.ShloMosaic Cert.ReferenceIdeal Cert.ReferenceIdeal.Gen

variable {F : FTy → Type} [FloatOps F]

/-- Row 0 of the incidence list: the node of each pair. -/
def nodeOf (a : (⟨S2x2000000, .i32⟩ : BufTy).Contents (Elt F)) : (⟨S2000000, .i32⟩ : BufTy).Contents (Elt F) :=
  shapeCast _ (extractStridedSlice S1x2000000 ![0, 0] a slices_S2x2000000_S1x2000000_0_0) shapeCasts_S1x2000000_S2000000

/-- Row 1 of the incidence list: the hyperedge of each pair. -/
def edgeOf (a : (⟨S2x2000000, .i32⟩ : BufTy).Contents (Elt F)) : (⟨S2000000, .i32⟩ : BufTy).Contents (Elt F) :=
  shapeCast _ (extractStridedSlice S1x2000000 ![1, 0] a slices_S2x2000000_S1x2000000_1_0) shapeCasts_S1x2000000_S2000000

/-- One per pair. -/
def ones : (⟨S2000000, .f32⟩ : BufTy).Contents (Elt F) :=
  broadcastInDim S2000000 ![] bcast_S_S2000000 (constant S_ .f32 0x3F800000#32)

/-- The number of pairs that name each node. -/
def degNode (node : (⟨S2000000, .i32⟩ : BufTy).Contents (Elt F)) : (⟨S200000, .f32⟩ : BufTy).Contents (Elt F) :=
  Host.scatterAdd scatter_S200000_S2000000x1_S2000000_n_0_0_1 (broadcastInDim S200000 ![] bcast_S_S200000 (constant S_ .f32 0x00000000#32))
    (broadcastInDim S2000000x1 ![0] bcast_S2000000_S2000000x1_0 node) (ones (F := F))

/-- 1 / degree of a node where the degree is positive, 0 elsewhere. -/
def invDegNode (node : (⟨S2000000, .i32⟩ : BufTy).Contents (Elt F)) : (⟨S200000, .f32⟩ : BufTy).Contents (Elt F) :=
  select (cmpf (F := F) .ogt (degNode node) (broadcastInDim S200000 ![] bcast_S_S200000 (constant S_ .f32 0x00000000#32)))
    (Host.divf (broadcastInDim S200000 ![] bcast_S_S200000 (constant S_ .f32 0x3F800000#32)) (degNode node))
    (broadcastInDim S200000 ![] bcast_S_S200000 (id (constant S_ .f32 0x00000000#32)))

/-- The number of pairs that name each hyperedge. -/
def degEdge (edge : (⟨S2000000, .i32⟩ : BufTy).Contents (Elt F)) : (⟨S50000, .f32⟩ : BufTy).Contents (Elt F) :=
  Host.scatterAdd scatter_S50000_S2000000x1_S2000000_n_0_0_1 (broadcastInDim S50000 ![] bcast_S_S50000 (constant S_ .f32 0x00000000#32))
    (broadcastInDim S2000000x1 ![0] bcast_S2000000_S2000000x1_0 edge) (ones (F := F))

/-- 1 / degree of a hyperedge where the degree is positive, 0 elsewhere. -/
def invDegEdge (edge : (⟨S2000000, .i32⟩ : BufTy).Contents (Elt F)) : (⟨S50000, .f32⟩ : BufTy).Contents (Elt F) :=
  select (cmpf (F := F) .ogt (degEdge edge) (broadcastInDim S50000 ![] bcast_S_S50000 (constant S_ .f32 0x00000000#32)))
    (Host.divf (broadcastInDim S50000 ![] bcast_S_S50000 (constant S_ .f32 0x3F800000#32)) (degEdge edge))
    (broadcastInDim S50000 ![] bcast_S_S50000 (id (constant S_ .f32 0x00000000#32)))

/-- A node index with a negative value wrapped once by the number of nodes. -/
def wrapNode (node : (⟨S2000000, .i32⟩ : BufTy).Contents (Elt F)) : (⟨S2000000, .i32⟩ : BufTy).Contents (Elt F) :=
  select (cmpi .slt node (broadcastInDim S2000000 ![] bcast_S_S2000000 (constantI S_ 32 0#32)))
    (addi node (broadcastInDim S2000000 ![] bcast_S_S2000000 (constantI S_ 32 200000#32))) node

/-- A hyperedge index with a negative value wrapped once by the number of hyperedges. -/
def wrapEdge (edge : (⟨S2000000, .i32⟩ : BufTy).Contents (Elt F)) : (⟨S2000000, .i32⟩ : BufTy).Contents (Elt F) :=
  select (cmpi .slt edge (broadcastInDim S2000000 ![] bcast_S_S2000000 (constantI S_ 32 0#32)))
    (addi edge (broadcastInDim S2000000 ![] bcast_S_S2000000 (constantI S_ 32 50000#32))) edge

/-- Node rows summed into hyperedges: the row of each pair's node added into the pair's hyperedge. -/
def toEdges (x : (⟨S200000x128, .f32⟩ : BufTy).Contents (Elt F)) (node edge : (⟨S2000000, .i32⟩ : BufTy).Contents (Elt F)) :
    (⟨S50000x128, .f32⟩ : BufTy).Contents (Elt F) :=
  Host.scatterAdd scatter_S50000x128_S2000000x1_S2000000x128_1_0_0_1 (broadcastInDim S50000x128 ![] bcast_S_S50000x128 (constant S_ .f32 0x00000000#32))
    (broadcastInDim S2000000x1 ![0] bcast_S2000000_S2000000x1_0 edge)
    (Host.gather gather_S200000x128_S2000000x1_S2000000x128_1_0_n_n_0_1_1128 x (broadcastInDim S2000000x1 ![0] bcast_S2000000_S2000000x1_0 (wrapNode node)))

/-- Hyperedge rows summed into nodes: the row of each pair's hyperedge added into the pair's node. -/
def toNodes (y : (⟨S50000x128, .f32⟩ : BufTy).Contents (Elt F)) (node edge : (⟨S2000000, .i32⟩ : BufTy).Contents (Elt F)) :
    (⟨S200000x128, .f32⟩ : BufTy).Contents (Elt F) :=
  Host.scatterAdd scatter_S200000x128_S2000000x1_S2000000x128_1_0_0_1 (broadcastInDim S200000x128 ![] bcast_S_S200000x128 (constant S_ .f32 0x00000000#32))
    (broadcastInDim S2000000x1 ![0] bcast_S2000000_S2000000x1_0 node)
    (Host.gather gather_S50000x128_S2000000x1_S2000000x128_1_0_n_n_0_1_1128 y (broadcastInDim S2000000x1 ![0] bcast_S2000000_S2000000x1_0 (wrapEdge edge)))

end Cert.Stages

end
-- ==== Proof.KernelChain.lean ====
/-
  The kernel program's host stretches, read back buffer by buffer.

  Between its three dense sweeps the program runs the shared host functions on what the sweeps leave: the incidence
  rows and the inverse degrees depend on the index array only; the hyperedge table is the aggregation of the linear
  layer's result; the node table the aggregation of the scaled hyperedge table. Each buffer a later sweep reads is
  named here as that function of the buffers at the previous sweep's exit, and the buffers no stretch writes are
  carried along unchanged.
-/
import proofs.«120803_j2559800508842_1_alg».proof.Proof.Gen.KernelIdeal.Frame
import proofs.«120803_j2559800508842_1_alg».proof.Proof.Stages

set_option maxRecDepth 16384

noncomputable section

namespace Cert.KernelIdeal.Chain

open Idealize.ShloMosaic Idealize.ShloMosaic.TcCoe Idealize.SL.Sem Idealize.ShloMosaic.StableHlo Cert.KernelIdeal Cert.KernelIdeal.Gen
open Cert.Stages

variable {F : FTy → Type} [FloatOps F]
variable (m : (ℓ : Loc nD τ sig) → Buf (Elt F) ℓ) (ρ : Dev nD → PrngReg) (c : Dev nD)

/-! ## Before the linear layer -/

theorem W1_arg0 : W1 m ρ c (Proc.devRef .tc main_arg0) = m ((c : Thread nD τ).loc main_arg0) := by
  show StableHlo.after hostOps0 (W0 m ρ c) (Proc.devRef .tc main_arg0) = _
  after_results <;> rfl

theorem W1_arg2 : W1 m ρ c (Proc.devRef .tc main_arg2) = m ((c : Thread nD τ).loc main_arg2) := by
  show StableHlo.after hostOps0 (W0 m ρ c) (Proc.devRef .tc main_arg2) = _
  after_results <;> rfl

theorem W1_arg3 : W1 m ρ c (Proc.devRef .tc main_arg3) = m ((c : Thread nD τ).loc main_arg3) := by
  show StableHlo.after hostOps0 (W0 m ρ c) (Proc.devRef .tc main_arg3) = _
  after_results <;> rfl

/-- Row 0 of the index array. -/
theorem W1_node : W1 m ρ c (Proc.devRef .tc main_v1) = nodeOf (m ((c : Thread nD τ).loc main_arg1)) := by
  show StableHlo.after hostOps0 (W0 m ρ c) (Proc.devRef .tc main_v1) = _
  after_results <;> rfl

/-- Row 1 of the index array. -/
theorem W1_edge : W1 m ρ c (Proc.devRef .tc main_v3) = edgeOf (m ((c : Thread nD τ).loc main_arg1)) := by
  show StableHlo.after hostOps0 (W0 m ρ c) (Proc.devRef .tc main_v3) = _
  after_results <;> rfl

/-! ## After the linear layer: its result at what the sweep leaves, everything else as before -/

theorem W2_lin : W2 m ρ c (Proc.devRef .tc main_v4) = (dat0 (V1 m ρ) c).arrAt 2 cfg0.N := W2_arr m ρ c 2

theorem W2_node : W2 m ρ c (Proc.devRef .tc main_v1) = nodeOf (m ((c : Thread nD τ).loc main_arg1)) :=
  (W2_of_ne m ρ c main_v1 (by decide)).trans (W1_node m ρ c)

theorem W2_edge : W2 m ρ c (Proc.devRef .tc main_v3) = edgeOf (m ((c : Thread nD τ).loc main_arg1)) :=
  (W2_of_ne m ρ c main_v3 (by decide)).trans (W1_edge m ρ c)

theorem W2_arg3 : W2 m ρ c (Proc.devRef .tc main_arg3) = m ((c : Thread nD τ).loc main_arg3) :=
  (W2_of_ne m ρ c main_arg3 (by decide)).trans (W1_arg3 m ρ c)

/-! ## The stretch up to the row scaling -/

set_option maxHeartbeats 4000000 in
/-- The hyperedge table: the linear layer's rows aggregated into hyperedges. -/
theorem W7_table : W7 m ρ c (Proc.devRef .tc main_v33)
    = toEdges (W2 m ρ c (Proc.devRef .tc main_v4)) (W2 m ρ c (Proc.devRef .tc main_v1)) (W2 m ρ c (Proc.devRef .tc main_v3)) := by
  show StableHlo.after hostOps1_4 (StableHlo.after hostOps1_3 (StableHlo.after hostOps1_2 (StableHlo.after hostOps1_1
    (StableHlo.after hostOps1 (W2 m ρ c))))) (Proc.devRef .tc main_v33) = _
  after_results_simp <;> rfl

set_option maxHeartbeats 4000000 in
/-- The column of inverse hyperedge degrees. -/
theorem W7_invEdge : W7 m ρ c (Proc.devRef .tc main_v23)
    = shapeCast S50000x1 (invDegEdge (W2 m ρ c (Proc.devRef .tc main_v3))) shapeCasts_S50000_S50000x1 := by
  show StableHlo.after hostOps1_4 (StableHlo.after hostOps1_3 (StableHlo.after hostOps1_2 (StableHlo.after hostOps1_1
    (StableHlo.after hostOps1 (W2 m ρ c))))) (Proc.devRef .tc main_v23) = _
  after_results_simp <;> rfl

/-- The column of inverse node degrees. -/
theorem W7_invNode : W7 m ρ c (Proc.devRef .tc main_v14)
    = shapeCast S200000x1 (invDegNode (W2 m ρ c (Proc.devRef .tc main_v1))) shapeCasts_S200000_S200000x1 := by
  show StableHlo.after hostOps1_4 (StableHlo.after hostOps1_3 (StableHlo.after hostOps1_2 (StableHlo.after hostOps1_1
    (StableHlo.after hostOps1 (W2 m ρ c))))) (Proc.devRef .tc main_v14) = _
  after_results <;> rfl

theorem W7_node : W7 m ρ c (Proc.devRef .tc main_v1) = W2 m ρ c (Proc.devRef .tc main_v1) := by
  show StableHlo.after hostOps1_4 (StableHlo.after hostOps1_3 (StableHlo.after hostOps1_2 (StableHlo.after hostOps1_1
    (StableHlo.after hostOps1 (W2 m ρ c))))) (Proc.devRef .tc main_v1) = _
  after_results <;> rfl

theorem W7_edge : W7 m ρ c (Proc.devRef .tc main_v3) = W2 m ρ c (Proc.devRef .tc main_v3) := by
  show StableHlo.after hostOps1_4 (StableHlo.after hostOps1_3 (StableHlo.after hostOps1_2 (StableHlo.after hostOps1_1
    (StableHlo.after hostOps1 (W2 m ρ c))))) (Proc.devRef .tc main_v3) = _
  after_results <;> rfl

theorem W7_arg3 : W7 m ρ c (Proc.devRef .tc main_arg3) = W2 m ρ c (Proc.devRef .tc main_arg3) := by
  show StableHlo.after hostOps1_4 (StableHlo.after hostOps1_3 (StableHlo.after hostOps1_2 (StableHlo.after hostOps1_1
    (StableHlo.after hostOps1 (W2 m ρ c))))) (Proc.devRef .tc main_arg3) = _
  after_results <;> rfl

/-! ## After the row scaling -/

theorem W8_scaled : W8 m ρ c (Proc.devRef .tc main_v34) = (dat1 (V7 m ρ) c).arrAt 2 cfg1.N := W8_arr m ρ c 2

theorem W8_node : W8 m ρ c (Proc.devRef .tc main_v1) = W7 m ρ c (Proc.devRef .tc main_v1) := W8_of_ne m ρ c main_v1 (by decide)

theorem W8_edge : W8 m ρ c (Proc.devRef .tc main_v3) = W7 m ρ c (Proc.devRef .tc main_v3) := W8_of_ne m ρ c main_v3 (by decide)

theorem W8_invNode : W8 m ρ c (Proc.devRef .tc main_v14) = W7 m ρ c (Proc.devRef .tc main_v14) := W8_of_ne m ρ c main_v14 (by decide)

theorem W8_arg3 : W8 m ρ c (Proc.devRef .tc main_arg3) = W7 m ρ c (Proc.devRef .tc main_arg3) := W8_of_ne m ρ c main_arg3 (by decide)

/-! ## The stretch up to the last sweep -/

/-- The node table: the scaled hyperedge rows aggregated into nodes. -/
theorem W9_table : W9 m ρ c (Proc.devRef .tc main_v44)
    = toNodes (W8 m ρ c (Proc.devRef .tc main_v34)) (W8 m ρ c (Proc.devRef .tc main_v1)) (W8 m ρ c (Proc.devRef .tc main_v3)) := by
  show StableHlo.after hostOps2 (W8 m ρ c) (Proc.devRef .tc main_v44) = _
  after_results <;> rfl

theorem W9_invNode : W9 m ρ c (Proc.devRef .tc main_v14) = W8 m ρ c (Proc.devRef .tc main_v14) := by
  show StableHlo.after hostOps2 (W8 m ρ c) (Proc.devRef .tc main_v14) = _
  after_results <;> rfl

theorem W9_arg3 : W9 m ρ c (Proc.devRef .tc main_arg3) = W8 m ρ c (Proc.devRef .tc main_arg3) := by
  show StableHlo.after hostOps2 (W8 m ρ c) (Proc.devRef .tc main_arg3) = _
  after_results <;> rfl

/-! ## After the last sweep -/

theorem W10_out : W10 m ρ c (Proc.devRef .tc main_v45) = (dat2 (V9 m ρ) c).arrAt 3 cfg2.N := W10_arr m ρ c 3

end Cert.KernelIdeal.Chain

end
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.LinearBlock.lean ====
/-
  The linear layer's block product, read at an index.

  One grid point multiplies a [2000, 128] block of rows by the whole [128, 128] weight matrix into a zero
  accumulator. Both operands are narrowed to bf16 on the way in, which on the extended reals changes nothing, so the
  entry (p, q) of the block's result is the finite sum over k of x(p, k) · w(k, q).
-/
import proofs.«120803_j2559800508842_1_alg».proof.Proof.Gen.KernelIdeal.Skeleton
import proofs.«120803_j2559800508842_1_alg».proof.Proof.LibRowDots

noncomputable section

open scoped BigOperators

namespace Cert.KernelIdeal.Linear

open Idealize.ShloMosaic Idealize.ShloMosaic.ValueIdx Cert.KernelIdeal Cert.KernelIdeal.Gen

/-- The block product contracts the rows' axis 1 with the weights' axis 0 and has no batch axis. -/
theorem plain_block : Cert.Lib.RowDots.Plain dot_S2000x128_S128x128_S2000x128_1_0_0_1_n_n :=
  ⟨rfl, rfl, rfl, rfl, rfl, rfl⟩

/-- The stored block at (p, q): the sum over k of x(p, k) · w(k, q). -/
theorem pay_apply (x : Vec Ideal S2000x128 .f32) (w : Vec Ideal S128x128 .f32) (j : S2000x128.Idx) :
    k0_pay1 (F := Ideal) x w j = ∑ k : Fin 128, x (ix2 (j 0) k) * w (ix2 k (j 1)) := by
  unfold k0_pay1
  exact plain_block.matmul_zero_apply none _ _ j

end Cert.KernelIdeal.Linear

end
-- ==== Proof.Spec.lean ====
/-
  The three dense sweeps as whole-array functions, index by index (they mention no program).

  * the linear layer: row i of x times the weight matrix, entry (i, j) = the sum over k of x(i, k) · w(k, j);
  * the row scaling: entry (i, j) of a table times the i-th entry of a vector of row factors;
  * the last sweep: the same row scaling, plus the j-th bias, through the leaky rectifier
    v ↦ v when v ≥ 0 and c · v otherwise, with c the binary32 number written 0x3C23D70A (the rounding of 0.01).
  The product is read on the extended reals; the other two are the same over any float family.
-/
import Idealize.ShloMosaic.PureOps.Ideal
import Idealize.ShloMosaic.Lib.ValueIdx

noncomputable section

open scoped BigOperators

namespace Cert.Spec

open Idealize.ShloMosaic Idealize.ShloMosaic.ValueIdx

/-- The linear layer on the extended reals: (i, j) ↦ Σ_k x(i, k) · w(k, j). -/
def linear (x : (⟨2, ![200000, 128]⟩ : Shape).Idx → EReal) (w : (⟨2, ![128, 128]⟩ : Shape).Idx → EReal) :
    (⟨2, ![200000, 128]⟩ : Shape).Idx → EReal :=
  fun j => ∑ k : Fin 128, x (ix2 (j 0) k) * w (ix2 k (j 1))

variable {F : FTy → Type} [FloatOps F]

/-- Each row of a table of `n` rows times that row's factor. -/
def scaleRows {n : Nat} (raw : (⟨2, ![n, 128]⟩ : Shape).Idx → F .f32) (inv : (⟨1, ![n]⟩ : Shape).Idx → F .f32) :
    (⟨2, ![n, 128]⟩ : Shape).Idx → F .f32 :=
  fun j => FloatOps.mulf (raw j) (inv (ix1 (j 0)))

/-- The leaky rectifier with slope 0x3C23D70A on the negative side. -/
def leaky (v : F .f32) : F .f32 :=
  Scalar.select (FloatOps.cmpf .oge v (FloatOps.ofBits .f32 0x00000000#32)) v (FloatOps.mulf (FloatOps.ofBits .f32 0x3C23D70A#32) v)

/-- Each row times its factor, plus the bias of the column, through the leaky rectifier. -/
def scaleBiasAct {n : Nat} (raw : (⟨2, ![n, 128]⟩ : Shape).Idx → F .f32) (inv : (⟨1, ![n]⟩ : Shape).Idx → F .f32)
    (b : (⟨1, ![128]⟩ : Shape).Idx → F .f32) : (⟨2, ![n, 128]⟩ : Shape).Idx → F .f32 :=
  fun j => leaky (FloatOps.addf (FloatOps.mulf (raw j) (inv (ix1 (j 0)))) (b (ix1 (j 1))))

end Cert.Spec

end
-- ==== Proof.LinearArray.lean ====
/-
  The linear layer over all 200,000 rows.

  The grid has 100 points; point t takes rows 2000·t … 2000·t + 1999 of x and the whole weight matrix, and writes
  back the same rows of the product. Entry (p, q) of the block is the sum over k of x(2000·t + p, k) · w(k, q), which
  is entry (2000·t + p, q) of the whole product: each written block is the restriction of ONE function of the two
  arrays, and the 100 blocks tile the result.
-/
import proofs.«120803_j2559800508842_1_alg».proof.Proof.Gen.KernelIdeal.Frame
import proofs.«120803_j2559800508842_1_alg».proof.Proof.LinearBlock
import proofs.«120803_j2559800508842_1_alg».proof.Proof.Spec
import Idealize.ShloMosaic.Lib.Pipeline.Value

set_option maxRecDepth 16384

noncomputable section

open scoped BigOperators

namespace Cert.KernelIdeal.Linear

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The rows as the sweep finds them. -/
abbrev rowsArr (c : Dev nD) : S200000x128.Idx → EReal := V c main_arg0
/-- The weights as the sweep finds them. -/
abbrev weightsArr (c : Dev nD) : S128x128.Idx → EReal := V c main_arg2

/-- Point t's blocks: rows 2000·t on of x and of the result, all of their second axis; the whole weight matrix. -/
theorem rows0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0_eq (c : Dev nD) (t : Fin cfg0.N) :
    (dat0 V c).flushed 2 t = ((cfg0.win 2).blk t).view.read (Elt Ideal) (Cert.Spec.linear (rowsArr V c) (weightsArr V c)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := rows0 t
  funext j
  refine (pay_apply _ _ j).trans ?_
  show ∑ k : Fin 128, rowsArr V c (((cfg0.win 0).blk t).view.emb (ix2 (j 0) k)) * weightsArr V c (((cfg0.win 1).blk t).view.emb (ix2 k (j 1)))
    = ∑ k : Fin 128, rowsArr V c (ix2 ((((cfg0.win 2).blk t).view.emb j) 0) k) * weightsArr V c (ix2 k ((((cfg0.win 2).blk t).view.emb j) 1))
  have hj0 : (j 0).val < 2000 := (j 0).isLt
  have hj1 : (j 1).val < 128 := (j 1).isLt
  refine Finset.sum_congr rfl fun k _ => ?_
  have hk : k.val < 128 := k.isLt
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]
  rfl

/-- An index of the result is in point t's block iff each coordinate is in the block's range on its axis. -/
theorem mem_blk0 (t : Fin cfg0.N) (i : S200000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row r of the result is in the block of point r / 2000. -/
theorem cover0 (i : S200000x128.Idx) : ∃ t : Fin cfg0.N, (cfg0.win 2).flush t = true ∧ i ∈ ((cfg0.win 2).blk t).view.set := by
  have hi0 : (i 0).val < 200000 := (i 0).isLt
  have hi1 : (i 1).val < 128 := (i 1).isLt
  have hN : cfg0.N = 100 := N_0
  have hlt : (i 0).val / 2000 < cfg0.N := by rw [hN]; omega
  obtain ⟨-, -, -, -, e4, e5⟩ := rows0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 128 ≤ (i 1).val ∧ (i 1).val < win0_2.index ⟨(i 0).val / 2000, hlt⟩ (1 : Fin 2) * 128 + 128
    rw [e5]; omega

/-- THE PRODUCT: after the sweep the result array holds x · w. -/
theorem linear_array (c : Dev nD) :
    (dat0 V c).arrAt 2 cfg0.N = Cert.Spec.linear (rowsArr V c) (weightsArr V c) :=
  (dat0 V c).arrAt_eq_of_cover 2 _ (fun t _ => flushed0_eq V c t) cover0

end Cert.KernelIdeal.Linear

end
-- ==== Proof.LibColumns.lean ====
/-
  KEEPDIMS COLUMN FORMS READ AT AN INDEX (general lemmas; they mention no program).

  A row reduction that keeps its axis leaves a column: an [a] vector cast to [a, 1], then broadcast along the
  second axis to [a, b]. At (i, u) the cast reads the vector at i; at (p, c) the broadcast reads the column at (p, 0).
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Cert.Lib.Columns
-- ==== Proof.ScaleBlock.lean ====
/-
  The two elementwise sweeps' blocks, read at an index.

  A grid point of the row scaling holds a [2000, 128] block of the table and the [2000, 1] column of its rows'
  factors; the stored block is, at (p, q), the table's entry times the factor of row p. The last sweep adds the bias
  vector's entry q to that product and passes the sum through the leaky rectifier.
-/
import proofs.«120803_j2559800508842_1_alg».proof.Proof.Gen.KernelIdeal.Skeleton
import proofs.«120803_j2559800508842_1_alg».proof.Proof.LibColumns
import proofs.«120803_j2559800508842_1_alg».proof.Proof.Spec
import Idealize.ShloMosaic.Lib.ValueLayout

noncomputable section

namespace Cert.KernelIdeal.Scale

open Idealize.ShloMosaic Idealize.ShloMosaic.ValueIdx Cert.KernelIdeal Cert.KernelIdeal.Gen

variable {F : FTy → Type} [FloatOps F]

/-- The scaled block at (p, q): the table's entry times row p's factor. -/
theorem pay1_apply (x : Vec F S2000x128 .f32) (v : Vec F S2000x1 .f32) (p : Fin 2000) (q : Fin 128) :
    k1_pay1 x v (ix2 p q) = FloatOps.mulf (x (ix2 p q)) (v (ix2 p (0 : Fin 1))) := by
  unfold k1_pay1
  show FloatOps.mulf (shapeCast S2000x128 x shapeCasts_S2000x128_S2000x128 (ix2 p q))
    (broadcastTo S2000x128 (shapeCast S2000x1 v shapeCasts_S2000x1_S2000x1) broadcasts_S2000x1_S2000x128 (ix2 p q)) = _
  rw [shapeCast_self, shapeCast_self, Cert.Lib.Columns.broadcastTo_a1_ab_apply]

/-- The last sweep's block at (p, q): the scaled entry plus the bias of column q, through the leaky rectifier. -/
theorem pay2_apply (x : Vec F S2000x128 .f32) (v : Vec F S2000x1 .f32) (b : Vec F S128 .f32) (p : Fin 2000) (q : Fin 128) :
    k2_pay1 x v b (ix2 p q)
      = Cert.Spec.leaky (FloatOps.addf (FloatOps.mulf (x (ix2 p q)) (v (ix2 p (0 : Fin 1)))) (b (ix1 q))) := by
  have e1 : broadcastTo S2000x128 (shapeCast S2000x1 v shapeCasts_S2000x1_S2000x1) broadcasts_S2000x1_S2000x128 (ix2 p q)
      = v (ix2 p (0 : Fin 1)) := by
    rw [shapeCast_self, Cert.Lib.Columns.broadcastTo_a1_ab_apply]
  have e2 : broadcastTo S2000x128 (shapeCast S1x128 b shapeCasts_S128_S1x128) broadcasts_S1x128_S2000x128 (ix2 p q) = b (ix1 q) := by
    rw [broadcastTo_1b_ab_apply, shapeCast_a_1a_apply]
  have e0 : shapeCast S2000x128 x shapeCasts_S2000x128_S2000x128 (ix2 p q) = x (ix2 p q) := by rw [shapeCast_self]
  unfold k2_pay1 Cert.Spec.leaky
  show Scalar.select (FloatOps.cmpf .oge (FloatOps.addf (FloatOps.mulf (shapeCast S2000x128 x shapeCasts_S2000x128_S2000x128 (ix2 p q))
        (broadcastTo S2000x128 (shapeCast S2000x1 v shapeCasts_S2000x1_S2000x1) broadcasts_S2000x1_S2000x128 (ix2 p q)))
        (broadcastTo S2000x128 (shapeCast S1x128 b shapeCasts_S128_S1x128) broadcasts_S1x128_S2000x128 (ix2 p q))) (FloatOps.ofBits .f32 0x00000000#32))
      (FloatOps.addf (FloatOps.mulf (shapeCast S2000x128 x shapeCasts_S2000x128_S2000x128 (ix2 p q))
        (broadcastTo S2000x128 (shapeCast S2000x1 v shapeCasts_S2000x1_S2000x1) broadcasts_S2000x1_S2000x128 (ix2 p q)))
        (broadcastTo S2000x128 (shapeCast S1x128 b shapeCasts_S128_S1x128) broadcasts_S1x128_S2000x128 (ix2 p q)))
      (FloatOps.mulf (FloatOps.ofBits .f32 0x3C23D70A#32) (FloatOps.addf (FloatOps.mulf (shapeCast S2000x128 x shapeCasts_S2000x128_S2000x128 (ix2 p q))
        (broadcastTo S2000x128 (shapeCast S2000x1 v shapeCasts_S2000x1_S2000x1) broadcasts_S2000x1_S2000x128 (ix2 p q)))
        (broadcastTo S2000x128 (shapeCast S1x128 b shapeCasts_S128_S1x128) broadcasts_S1x128_S2000x128 (ix2 p q)))) = _
  rw [e0, e1, e2]

/-- The same at an index given whole. -/
theorem pay1_at (x : Vec F S2000x128 .f32) (v : Vec F S2000x1 .f32) (j : S2000x128.Idx) :
    k1_pay1 x v j = FloatOps.mulf (x j) (v (ix2 (j 0) (0 : Fin 1))) := by
  obtain ⟨p, q, rfl⟩ : ∃ (p : Fin 2000) (q : Fin 128), j = ix2 p q := ⟨j 0, j 1, eq_ix2 j⟩
  exact pay1_apply x v p q

/-- The same at an index given whole. -/
theorem pay2_at (x : Vec F S2000x128 .f32) (v : Vec F S2000x1 .f32) (b : Vec F S128 .f32) (j : S2000x128.Idx) :
    k2_pay1 x v b j
      = Cert.Spec.leaky (FloatOps.addf (FloatOps.mulf (x j) (v (ix2 (j 0) (0 : Fin 1)))) (b (ix1 (j 1)))) := by
  obtain ⟨p, q, rfl⟩ : ∃ (p : Fin 2000) (q : Fin 128), j = ix2 p q := ⟨j 0, j 1, eq_ix2 j⟩
  exact pay2_apply x v b p q

end Cert.KernelIdeal.Scale

end
-- ==== Proof.ScaleArray.lean ====
/-
  The row scaling over the whole hyperedge table.

  The grid has 25 points; point t takes rows 2000·t … 2000·t + 1999 of the [50000, 128] table and of the [50000, 1]
  column of factors, and writes back the same rows of the result. So each written block is the restriction of ONE
  function of the two arrays as the sweep finds them — entry (i, j) of the table times the column's entry (i, 0) — and
  the 25 blocks tile the result.
-/
import proofs.«120803_j2559800508842_1_alg».proof.Proof.Gen.KernelIdeal.Frame
import proofs.«120803_j2559800508842_1_alg».proof.Proof.ScaleBlock
import Idealize.ShloMosaic.Lib.Pipeline.Value

set_option maxRecDepth 16384

noncomputable section

namespace Cert.KernelIdeal.Scale

open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- A column [n, 1] as the vector of its entries. -/
def column {n : Nat} (v : (⟨2, ![n, 1]⟩ : Shape).Idx → F .f32) : (⟨1, ![n]⟩ : Shape).Idx → F .f32 :=
  fun i => v (ix2 (i 0) (0 : Fin 1))

/-- The column a vector is cast to has the vector's entries. -/
theorem column_shapeCast {n : Nat} (v : (⟨1, ![n]⟩ : Shape).Idx → F .f32) (h : (⟨1, ![n]⟩ : Shape).ShapeCasts ⟨2, ![n, 1]⟩) :
    column (shapeCast ⟨2, ![n, 1]⟩ v h) = v := by
  funext i
  obtain ⟨p, rfl⟩ : ∃ p : Fin n, i = ix1 p := ⟨i 0, eq_ix1 i⟩
  exact Cert.Lib.Columns.shapeCast_a_a1_apply v h p (0 : Fin 1)

/-- Point t's blocks: rows 2000·t on of the table, of the column and of the result; all of the second axis. -/
theorem rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled table. -/
theorem flushed1_eq (c : Dev nD) (t : Fin cfg1.N) :
    (dat1 V c).flushed 2 t = ((cfg1.win 2).blk t).view.read (Elt F)
      (Cert.Spec.scaleRows (n := 50000) (V c main_v33) (column (V c main_v23))) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S2000x1) zero_offsets]
  obtain ⟨e0, e1, e2, e3, e4, e5⟩ := rows1 t
  funext j
  refine (pay1_at _ _ j).trans ?_
  show FloatOps.mulf (V c main_v33 (((cfg1.win 0).blk t).view.emb j)) (V c main_v23 (((cfg1.win 1).blk t).view.emb (ix2 (j 0) (0 : Fin 1))))
    = FloatOps.mulf (V c main_v33 (((cfg1.win 2).blk t).view.emb j)) (V c main_v23 (ix2 ((((cfg1.win 2).blk t).view.emb j) 0) (0 : Fin 1)))
  have hj0 : (j 0).val < 2000 := (j 0).isLt
  have hj1 : (j 1).val < 128 := (j 1).isLt
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 1 + 1 * 0 = 0; omega
  rw [h0, h1]
  rfl

/-- An index of the table is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v34).slice (win1_2.rect t)).set ↔ _
  rw [View.set_slice_whole, Rect.mem_set_unit]
  exact Iff.rfl

/-- Row r of the table is in the block of point r / 2000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, e4, e5⟩ := rows1 ⟨(i 0).val / 2000, hlt⟩
  refine ⟨⟨(i 0).val / 2000, hlt⟩, flush1_2 _, ?_⟩
  rw [mem_blk1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    rw [e5]; omega

/-- THE SCALED TABLE: after the sweep the result array holds, at (i, j), the table's entry times the column's entry (i, 0). -/
theorem scaled_array (c : Dev nD) :
    (dat1 V c).arrAt 2 cfg1.N = Cert.Spec.scaleRows (n := 50000) (V c main_v33) (column (V c main_v23)) :=
  (dat1 V c).arrAt_eq_of_cover 2 _ (fun t _ => flushed1_eq V c t) cover1

end Cert.KernelIdeal.Scale

end
-- ==== Proof.ActArray.lean ====
/-
  The last sweep over the whole node table.

  The grid has 100 points; point t takes rows 2000·t … 2000·t + 1999 of the [200000, 128] node table and of the
  [200000, 1] column of inverse node degrees, and the whole bias vector, and writes back the same rows of the result:
  at (i, j) the table's entry times the column's entry (i, 0), plus the bias j, through the leaky rectifier. The 100
  blocks tile the result.
-/
import proofs.«120803_j2559800508842_1_alg».proof.Proof.Gen.KernelIdeal.Frame
import proofs.«120803_j2559800508842_1_alg».proof.Proof.ScaleArray
import Idealize.ShloMosaic.Lib.Pipeline.Value

set_option maxRecDepth 16384

noncomputable section

namespace Cert.KernelIdeal.Act

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Scale (zero_offsets column pay2_at)

variable {F : FTy → Type} [FloatOps F]
variable (V : (c : Dev nD) → (b : Ref sig .tc) → Buf (Elt F) ((c : Thread nD τ).loc b))

theorem zero_offset : (![0] : Fin 1 → Nat) = fun _ => 0 := funext fun a => by fin_cases a; rfl

/-- Point t's blocks: rows 2000·t on of the table, of the column and of the result, all of their second axis; the
    whole bias vector. -/
theorem rows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point t writes back is block t of the scaled, biased, rectified table. -/
theorem flushed2_eq (c : Dev nD) (t : Fin cfg2.N) :
    (dat2 V c).flushed 3 t = ((cfg2.win 3).blk t).view.read (Elt F)
      (Cert.Spec.scaleBiasAct (n := 200000) (V c main_v44) (column (V c main_v14)) (V c main_arg3)) := by
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S2000x1) zero_offsets,
    View.ld_unit_zero (S := S128) zero_offset]
  obtain ⟨e0, e1, e2, e3, e4, e5, e6⟩ := rows2 t
  funext j
  refine (pay2_at _ _ _ j).trans ?_
  show Cert.Spec.leaky (FloatOps.addf (FloatOps.mulf (V c main_v44 (((cfg2.win 0).blk t).view.emb j))
        (V c main_v14 (((cfg2.win 1).blk t).view.emb (ix2 (j 0) (0 : Fin 1))))) (V c main_arg3 (((cfg2.win 2).blk t).view.emb (ix1 (j 1)))))
    = Cert.Spec.leaky (FloatOps.addf (FloatOps.mulf (V c main_v44 (((cfg2.win 3).blk t).view.emb j))
        (V c main_v14 (ix2 ((((cfg2.win 3).blk t).view.emb j) 0) (0 : Fin 1)))) (V c main_arg3 (ix1 ((((cfg2.win 3).blk t).view.emb j) 1))))
  have hj0 : (j 0).val < 2000 := (j 0).isLt
  have hj1 : (j 1).val < 128 := (j 1).isLt
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb (ix2 (j 0) (0 : Fin 1)) = ix2 ((((cfg2.win 3).blk t).view.emb j) 0) (0 : Fin 1) := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 1 + 1 * 0 = 0; omega
  have h2 : ((cfg2.win 2).blk t).view.emb (ix1 (j 1)) = ix1 ((((cfg2.win 3).blk t).view.emb j) 1) := by
    funext a; apply Fin.ext
    match a with
    | ⟨0, _⟩ => show win2_2.index t (0 : Fin 1) * 128 + 1 * (j 1).val = win2_3.index t (1 : Fin 2) * 128 + 1 * (j 1).val; omega
  rw [h0, h1, h2]
  rfl

/-- An index of the result is in point t's block iff each coordinate is in the block's range on its axis. -/
theorem mem_blk2 (t : Fin cfg2.N) (i : S200000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v45).slice (win2_3.rect t)).set ↔ _
  rw [View.set_slice_whole, Rect.mem_set_unit]
  exact Iff.rfl

/-- Row r of the result is in the block of point r / 2000. -/
theorem cover2 (i : S200000x128.Idx) : ∃ t : Fin cfg2.N, (cfg2.win 3).flush t = true ∧ i ∈ ((cfg2.win 3).blk t).view.set := by
  have hi0 : (i 0).val < 200000 := (i 0).isLt
  have hi1 : (i 1).val < 128 := (i 1).isLt
  have hN : cfg2.N = 100 := N_2
  have hlt : (i 0).val / 2000 < cfg2.N := by rw [hN]; omega
  obtain ⟨-, -, -, -, -, e5, e6⟩ := rows2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e5]; show (i 0).val / 2000 * 2000 ≤ (i 0).val ∧ (i 0).val < (i 0).val / 2000 * 2000 + 2000; omega
  | ⟨1, _⟩ =>
    show win2_3.index ⟨(i 0).val / 2000, hlt⟩ (1 : Fin 2) * 128 ≤ (i 1).val ∧ (i 1).val < win2_3.index ⟨(i 0).val / 2000, hlt⟩ (1 : Fin 2) * 128 + 128
    rw [e6]; omega

/-- THE RESULT: after the sweep the result array holds the scaled, biased, rectified node table. -/
theorem act_array (c : Dev nD) :
    (dat2 V c).arrAt 3 cfg2.N = Cert.Spec.scaleBiasAct (n := 200000) (V c main_v44) (column (V c main_v14)) (V c main_arg3) :=
  (dat2 V c).arrAt_eq_of_cover 3 _ (fun t _ => flushed2_eq V c t) cover2

end Cert.KernelIdeal.Act

end
-- ==== Proof.Result.lean ====
/-
  The whole layer as one function of the four arguments, on the extended reals.

  out = act( D⁻¹ · Hᵀ-aggregate( B⁻¹ · H-aggregate( x · w ) ) + b ): the linear layer; its rows summed into hyperedges
  and each hyperedge row divided by the hyperedge's degree; those rows summed back into nodes, each node row divided by
  the node's degree, the bias added and the leaky rectifier applied. Both programs end at this function of their
  arguments.
-/
import proofs.«120803_j2559800508842_1_alg».proof.Proof.Stages
import proofs.«120803_j2559800508842_1_alg».proof.Proof.Spec

noncomputable section

namespace Cert.Result

open Idealize.ShloMosaic Cert.ReferenceIdeal Cert.Stages

/-- The scaled hyperedge table. -/
def hyperedges (x : (⟨S200000x128, .f32⟩ : BufTy).Contents (Elt Ideal)) (a : (⟨S2x2000000, .i32⟩ : BufTy).Contents (Elt Ideal))
    (w : (⟨S128x128, .f32⟩ : BufTy).Contents (Elt Ideal)) : (⟨S50000x128, .f32⟩ : BufTy).Contents (Elt Ideal) :=
  Cert.Spec.scaleRows (F := Ideal) (n := 50000) (toEdges (F := Ideal) (Cert.Spec.linear x w) (nodeOf a) (edgeOf a)) (invDegEdge (F := Ideal) (edgeOf a))

/-- The layer's result. -/
def layer (x : (⟨S200000x128, .f32⟩ : BufTy).Contents (Elt Ideal)) (a : (⟨S2x2000000, .i32⟩ : BufTy).Contents (Elt Ideal))
    (w : (⟨S128x128, .f32⟩ : BufTy).Contents (Elt Ideal)) (b : (⟨S128, .f32⟩ : BufTy).Contents (Elt Ideal)) :
    (⟨S200000x128, .f32⟩ : BufTy).Contents (Elt Ideal) :=
  Cert.Spec.scaleBiasAct (F := Ideal) (n := 200000) (toNodes (F := Ideal) (hyperedges x a w) (nodeOf a) (edgeOf a)) (invDegNode (F := Ideal) (nodeOf a)) b

end Cert.Result

end
-- ==== Proof.KernelValue.lean ====
/-
  The kernel program ends at the layer's function of its arguments.

  The linear sweep leaves x · w; the host aggregates it into hyperedges and the row-scaling sweep divides each
  hyperedge row by its degree; the host aggregates those rows into nodes and the last sweep divides each node row by
  its degree, adds the bias and rectifies. The index rows, the inverse degrees and the bias reach each sweep unchanged
  through the stretches in between.
-/
import proofs.«120803_j2559800508842_1_alg».proof.Proof.KernelChain
import proofs.«120803_j2559800508842_1_alg».proof.Proof.LinearArray
import proofs.«120803_j2559800508842_1_alg».proof.Proof.ScaleArray
import proofs.«120803_j2559800508842_1_alg».proof.Proof.ActArray
import proofs.«120803_j2559800508842_1_alg».proof.Proof.Result

set_option maxRecDepth 16384

noncomputable section

namespace Cert.KernelValue

open Idealize.ShloMosaic Idealize.ShloMosaic.TcCoe Idealize.SL.Sem Cert.KernelIdeal Cert.KernelIdeal.Gen
open Cert.KernelIdeal.Chain
open Cert.KernelIdeal.Scale (column column_shapeCast scaled_array)

variable (m : (ℓ : Loc nD τ sig) → Buf (Elt Ideal) ℓ) (ρ : Dev nD → PrngReg) (c : Dev nD)

/-- The linear sweep leaves x · w. -/
theorem product : W2 m ρ c (Proc.devRef .tc main_v4)
    = Cert.Spec.linear (m ((c : Thread nD τ).loc main_arg0)) (m ((c : Thread nD τ).loc main_arg2)) := by
  rw [W2_lin, Cert.KernelIdeal.Linear.linear_array (V1 m ρ) c]
  show Cert.Spec.linear (W1 m ρ c (Proc.devRef .tc main_arg0)) (W1 m ρ c (Proc.devRef .tc main_arg2)) = _
  rw [W1_arg0, W1_arg2]

/-- The row-scaling sweep leaves the scaled hyperedge table. -/
theorem hyperedges : W8 m ρ c (Proc.devRef .tc main_v34)
    = Cert.Result.hyperedges (m ((c : Thread nD τ).loc main_arg0)) (m ((c : Thread nD τ).loc main_arg1)) (m ((c : Thread nD τ).loc main_arg2)) := by
  rw [W8_scaled, scaled_array (V7 m ρ) c]
  show Cert.Spec.scaleRows (F := Ideal) (n := 50000) (W7 m ρ c (Proc.devRef .tc main_v33)) (column (F := Ideal) (W7 m ρ c (Proc.devRef .tc main_v23))) = _
  rw [W7_table, W7_invEdge, column_shapeCast, product, W2_node, W2_edge]
  rfl

/-- The last sweep leaves the layer's result. -/
theorem result : W10 m ρ c (Proc.devRef .tc main_v45)
    = Cert.Result.layer (m ((c : Thread nD τ).loc main_arg0)) (m ((c : Thread nD τ).loc main_arg1))
        (m ((c : Thread nD τ).loc main_arg2)) (m ((c : Thread nD τ).loc main_arg3)) := by
  rw [W10_out, Cert.KernelIdeal.Act.act_array (V9 m ρ) c]
  show Cert.Spec.scaleBiasAct (F := Ideal) (n := 200000) (W9 m ρ c (Proc.devRef .tc main_v44)) (column (F := Ideal) (W9 m ρ c (Proc.devRef .tc main_v14)))
    (W9 m ρ c (Proc.devRef .tc main_arg3)) = _
  rw [W9_table, W9_invNode, W9_arg3, W8_invNode, W7_invNode, column_shapeCast, W8_arg3, W7_arg3, W2_arg3, hyperedges,
    W8_node, W7_node, W2_node, W8_edge, W7_edge, W2_edge]
  rfl

end Cert.KernelValue

end
-- ==== Proof.LibRowNetLayout.lean ====
/-
  LAYOUT OPERATIONS OF A ROW-WISE NETWORK, READ AT AN INDEX (general lemmas; they mention no program).

  A table [a, b] of biases joins a batch [c, a, b] in two steps: it is placed as the one slab of [1, a, b] and that slab
  is repeated along the leading axis. A row statistic [a] joins its rows [a, b] in two steps as well: it is placed as
  the column [a, 1] and the column is repeated along the second axis. A scalar is repeated over any shape. An array
  [a, b, c] read as [a, n] with n = b · c lays each item's b groups of c side by side: column p · c + q is the pair
  (p, q). And the sum over the second axis of [a, b], on the extended reals, is the initial value plus the finite sum
  over that axis's coordinates. Every statement reads the operation at an index written by its coordinates and names
  the operand's entry it is.
-/
import Idealize.ShloMosaic.Lib.Pipeline.Value
import Idealize.ShloMosaic.Lib.ValueIdx
import Idealize.ShloMosaic.PureOps.Ideal.Laws

noncomputable section

open scoped BigOperators

namespace Cert.RefLayout

open Idealize.ShloMosaic Idealize.ShloMosaic.ValueIdx

variable {α : Type}

/-- A scalar repeated over a shape reads, at every index, the scalar. -/
theorem broadcastInDim_scalar_apply {t : Shape} (dims : Fin 0 → Fin t.rank) (x : (⟨0, ![]⟩ : Shape).Idx → α)
    (h : (⟨0, ![]⟩ : Shape).BroadcastsInDim t dims) (j : t.Idx) : broadcastInDim t dims h x j = x ix0 :=
  broadcastInDim_apply dims h x j ix0 fun a => a.elim0

/-- A table `[a, b]` placed as the one slab of `[1, a, b]` reads, at `(u, i, j)`, the table at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- The one slab `[1, a, b]` repeated to `[c, a, b]` reads, at `(w, i, j)`, the slab at `(0, i, j)`. -/
theorem broadcastInDim_1ab_cab_apply {a b c : ℕ} (x : (⟨3, ![1, a, b]⟩ : Shape).Idx → α)
    (h : (⟨3, ![1, a, b]⟩ : Shape).BroadcastsInDim ⟨3, ![c, a, b]⟩ ![0, 1, 2]) (w : Fin c) (i : Fin a) (j : Fin b) :
    broadcastInDim ⟨3, ![c, a, b]⟩ ![0, 1, 2] h x (ix3 w i j) = x (ix3 (0 : Fin 1) i j) := by
  refine broadcastInDim_apply _ h x (ix3 w i j) (ix3 (0 : Fin 1) i j) fun ax => ?_
  match ax with
  | ⟨0, _⟩ =>
    show (0 : ℕ) = if (1 : ℕ) = 1 then 0 else w.val
    rw [if_pos rfl]
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[a]` placed as the column `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column `[a, 1]` repeated to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[a, b, c]` array read as `[a, n]` with `n = b · c` (its two trailing axes taken as one) reads, at `(i, r)` with
    `r = p · c + q`, the operand at `(i, p, q)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (p : Fin b) (q : Fin c) (r : Fin n)
    (hr : r.val = p.val * c + q.val) : shapeCast ⟨2, ![a, n]⟩ x h (ix2 i r) = x (ix3 i p q) :=
  shapeCast_apply x h _ _ (by
    rw [Shape.rowMajor_val_three, Shape.rowMajor_val_two]
    show (i.val * b + p.val) * c + q.val = i.val * n + r.val
    rw [hr, hn, Nat.add_mul, Nat.mul_assoc, Nat.add_assoc])

/-- The coordinates of the source index a sum over the second axis of `[a, b]` visits: row `i`, column `k`. -/
theorem lift_rows {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- The sum over the second axis of `[a, b]`, on the extended reals, read at `i`: the initial value plus the sum over
    the columns `k` of the operand at `(i, k)`. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ k : Fin b, x (ix2 i k) := by
  rw [Ideal.hostReduceAdd_single h' h]
  refine congrArg (init + ·) (Finset.sum_congr rfl fun k _ => ?_)
  exact congrArg x (lift_rows h i k)

end Cert.RefLayout

end
-- ==== Proof.LibRowBroadcast.lean ====
/-
  ONE ROW REPEATED OVER MANY, IN THE HOST'S SPELLING, READ AT AN INDEX (general lemmas; they mention no program).

  A vector [b] joins a table [a, b] in two steps: it is placed as the one row of [1, b], and that row is repeated along
  the leading axis. At (u, j) the placed row reads the vector at j; at (i, j) the repeated row reads the row at (0, j).
-/
import Idealize.ShloMosaic.Lib.Pipeline.Value
import Idealize.ShloMosaic.Lib.ValueIdx

namespace Cert.Lib.RowBroadcast

open Idealize.ShloMosaic Idealize.ShloMosaic.ValueIdx

variable {α : Type}

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[a, b]` reads, at `(i, j)`, the row at `(0, j)`. -/
theorem broadcastInDim_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Cert.Lib.RowBroadcast
-- ==== Proof.RefStages.lean ====
/-
  The reference, stage by stage, in the vocabulary the kernel's side is read in.

  The reference's incidence rows, inverse degrees and the two aggregations ARE the shared host functions applied to
  its own earlier stages; its matrix product is the linear layer's sum on the extended reals; its product with the
  broadcast inverse hyperedge degrees is the row scaling; and its last four operations (the product with the
  broadcast inverse node degrees, the broadcast bias, the compare with zero and the select against 0x3C23D70A times
  the value) are the scaled, biased, rectified sweep.
-/
import proofs.«120803_j2559800508842_1_alg».proof.Proof.RefRead
import proofs.«120803_j2559800508842_1_alg».proof.Proof.Stages
import proofs.«120803_j2559800508842_1_alg».proof.Proof.Spec
import proofs.«120803_j2559800508842_1_alg».proof.Proof.LibRowNetLayout
import proofs.«120803_j2559800508842_1_alg».proof.Proof.LibRowBroadcast

noncomputable section

open scoped BigOperators

namespace Cert.RefStages

open Idealize.ShloMosaic Idealize.ShloMosaic.ValueIdx Cert.ReferenceIdeal Cert.ReferenceIdeal.Gen Cert.ReferenceIdeal.ReadP Cert.Stages

variable {F : FTy → Type} [FloatOps F]

/-! ## The shared host functions -/

theorem node_eq (a : (⟨S2x2000000, .i32⟩ : BufTy).Contents (Elt F)) : val_main_v1 (F := F) a = nodeOf a := rfl

theorem edge_eq (a : (⟨S2x2000000, .i32⟩ : BufTy).Contents (Elt F)) : val_main_v3 (F := F) a = edgeOf a := rfl

theorem invDegNode_eq (a : (⟨S2x2000000, .i32⟩ : BufTy).Contents (Elt F)) : val_main_v13 (F := F) a = invDegNode (nodeOf a) := rfl

theorem invDegEdge_eq (a : (⟨S2x2000000, .i32⟩ : BufTy).Contents (Elt F)) : val_main_v21 (F := F) a = invDegEdge (edgeOf a) := rfl

theorem toEdges_eq (x : (⟨S200000x128, .f32⟩ : BufTy).Contents (Elt F)) (a : (⟨S2x2000000, .i32⟩ : BufTy).Contents (Elt F))
    (w : (⟨S128x128, .f32⟩ : BufTy).Contents (Elt F)) :
    val_main_v31 (F := F) x a w = toEdges (val_main_v4 (F := F) x w) (nodeOf a) (edgeOf a) := rfl

theorem toNodes_eq (x : (⟨S200000x128, .f32⟩ : BufTy).Contents (Elt F)) (a : (⟨S2x2000000, .i32⟩ : BufTy).Contents (Elt F))
    (w : (⟨S128x128, .f32⟩ : BufTy).Contents (Elt F)) :
    val_main_v44 (F := F) x a w = toNodes (val_main_v34 (F := F) x a w) (nodeOf a) (edgeOf a) := rfl

/-! ## The three dense stages -/

/-- The reference's matrix product, on the extended reals, is the linear layer's sum. -/
theorem linear_eq (x : (⟨S200000x128, .f32⟩ : BufTy).Contents (Elt Ideal)) (w : (⟨S128x128, .f32⟩ : BufTy).Contents (Elt Ideal)) :
    val_main_v4 (F := Ideal) x w = Cert.Spec.linear x w := by
  funext i
  rw [val_main_v4_apply]
  unfold Cert.Spec.linear
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

/-- The hyperedge table times the broadcast inverse hyperedge degrees is the row scaling. -/
theorem scaleRows_eq (x : (⟨S200000x128, .f32⟩ : BufTy).Contents (Elt F)) (a : (⟨S2x2000000, .i32⟩ : BufTy).Contents (Elt F))
    (w : (⟨S128x128, .f32⟩ : BufTy).Contents (Elt F)) :
    val_main_v34 (F := F) x a w = Cert.Spec.scaleRows (val_main_v31 (F := F) x a w) (val_main_v21 (F := F) a) := by
  funext i
  obtain ⟨p, q, rfl⟩ : ∃ (p : Fin 50000) (q : Fin 128), i = ix2 p q := ⟨i 0, i 1, eq_ix2 i⟩
  rw [val_main_v34_apply]
  unfold Cert.Spec.scaleRows
  refine congrArg _ ?_
  unfold val_main_v33 val_main_v32
  rw [Cert.RefLayout.broadcastInDim_a1_ab_apply, Cert.RefLayout.broadcastInDim_a_a1_apply]

/-- The reference's last stretch is the scaled, biased, rectified sweep. -/
theorem scaleBiasAct_eq (x : (⟨S200000x128, .f32⟩ : BufTy).Contents (Elt F)) (a : (⟨S2x2000000, .i32⟩ : BufTy).Contents (Elt F))
    (w : (⟨S128x128, .f32⟩ : BufTy).Contents (Elt F)) (b : (⟨S128, .f32⟩ : BufTy).Contents (Elt F)) :
    val_main_v55 (F := F) x a w b = Cert.Spec.scaleBiasAct (val_main_v44 (F := F) x a w) (val_main_v13 (F := F) a) b := by
  funext i
  obtain ⟨p, q, rfl⟩ : ∃ (p : Fin 200000) (q : Fin 128), i = ix2 p q := ⟨i 0, i 1, eq_ix2 i⟩
  have e46 : val_main_v46 (F := F) a (ix2 p q) = val_main_v13 (F := F) a (ix1 p) := by
    unfold val_main_v46 val_main_v45
    rw [Cert.RefLayout.broadcastInDim_a1_ab_apply, Cert.RefLayout.broadcastInDim_a_a1_apply]
  have e49 : val_main_v49 (F := F) b (ix2 p q) = b (ix1 q) := by
    unfold val_main_v49 val_main_v48
    rw [Cert.Lib.RowBroadcast.broadcastInDim_1b_ab_apply, Cert.Lib.RowBroadcast.broadcastInDim_b_1b_apply]
  have e50 : val_main_v50 (F := F) x a w b (ix2 p q)
      = FloatOps.addf (FloatOps.mulf (val_main_v44 (F := F) x a w (ix2 p q)) (val_main_v13 (F := F) a (ix1 p))) (b (ix1 q)) := by
    rw [val_main_v50_apply, val_main_v47_apply, e46, e49]
  rw [val_main_v55_apply, val_main_v52_apply, val_main_v54_apply, e50]
  rfl

end Cert.RefStages

end
-- ==== Proof.RefValue.lean ====
/-
  The reference ends at the layer's function of its arguments.

  Its run's composed term is its last stage; the last stage is the scaled, biased, rectified sweep of the node
  aggregation of the row scaling of the hyperedge aggregation of the matrix product, with the inverse degrees of the
  incidence rows: the layer, stage by stage.
-/
import proofs.«120803_j2559800508842_1_alg».proof.Proof.RefStages
import proofs.«120803_j2559800508842_1_alg».proof.Proof.Result

noncomputable section

namespace Cert.RefValue

open Idealize.ShloMosaic Idealize.ShloMosaic.TcCoe Idealize.SL.Sem Cert.ReferenceIdeal Cert.ReferenceIdeal.Gen Cert.ReferenceIdeal.ReadP

theorem ref_result (m : (ℓ : Loc nD τ sig) → Buf (Elt Ideal) ℓ) (c : Dev nD) :
    Cert.ReferenceIdeal.ValueP.res_main_v55 m c
      = Cert.Result.layer (m ((c.tc : Thread nD τ).loc main_arg0)) (m ((c.tc : Thread nD τ).loc main_arg1))
          (m ((c.tc : Thread nD τ).loc main_arg2)) (m ((c.tc : Thread nD τ).loc main_arg3)) := by
  rw [val_main_v55_eq, Cert.RefStages.scaleBiasAct_eq, Cert.RefStages.toNodes_eq, Cert.RefStages.scaleRows_eq,
    Cert.RefStages.toEdges_eq, Cert.RefStages.linear_eq, Cert.RefStages.invDegNode_eq, Cert.RefStages.invDegEdge_eq]
  rfl

end Cert.RefValue

end
-- ==== Proof.lean ====
/-
  One layer of a hypergraph convolution, out = act(D⁻¹ · Hᵀ(B⁻¹ · H(x · w)) + b), certified equal, on the extended reals,
  between a program with three dense sweeps on the chip and its plain reference.

  H is given as an incidence list of 2,000,000 (node, hyperedge) pairs; B and D are the hyperedge and node degrees (the
  number of pairs naming each), inverted where positive and 0 elsewhere; act is the leaky rectifier with slope the
  binary32 rounding of 0.01. The kernel program computes x · w block by block (2000 rows at a point, the operands
  narrowed to bf16, which the extended reals do not see), scales the hyperedge table row by row in a second sweep, and
  scales, biases and rectifies the node table in a third; the gathers and scatter-adds in between are the same host
  operations the reference runs, applied to equal operands, and are never opened. Both programs end at
  `Cert.Result.layer` of their arguments: the kernel program by reading each sweep's blocks as the restriction of one
  whole-array function and carrying the host stretches' buffers from sweep to sweep; the reference stage by stage.
  No algebraic law joins the two sides beyond the reading of both matrix products as the same finite sum, so the
  precondition is not used.
-/
import proofs.«120803_j2559800508842_1_alg».proof.Defs
import proofs.«120803_j2559800508842_1_alg».proof.Proof.Gen.Kernel
import proofs.«120803_j2559800508842_1_alg».proof.Proof.Gen.Kernel.Frame
import proofs.«120803_j2559800508842_1_alg».proof.Proof.Gen.KernelIdeal
import proofs.«120803_j2559800508842_1_alg».proof.Proof.Gen.KernelIdeal.Frame
import proofs.«120803_j2559800508842_1_alg».proof.Proof.Gen.ReferenceIdeal
import proofs.«120803_j2559800508842_1_alg».proof.Proof.Gen.Pre_finite_inputs
import proofs.«120803_j2559800508842_1_alg».proof.Proof.KernelRun
import proofs.«120803_j2559800508842_1_alg».proof.Proof.KernelValue
import proofs.«120803_j2559800508842_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the layer's function of them in their result. -/
theorem algebraic : Cert.algebraic_KernelIdeal_ReferenceIdeal := by
  intro m ρ m' ρ' _ hagree
  refine ⟨fun c => Cert.Result.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (Cert.KernelValue.result m ρ c), (h c).2⟩)
      (Cert.KernelIdeal.GenRun.run_named m ρ)
  · refine (θ_run Cert.ReferenceIdeal.defs _ _).mono (fun r h c => ⟨(h c).1.trans ?_, (h c).2⟩)
      (Cert.ReferenceIdeal.ValueP.run (F := Ideal) m' ρ')
    rw [Cert.RefValue.ref_result, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
